-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x256 : Shape := ⟨2, ![100000, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_

variable [Facts]

def fn {F : FTy → Type} [FloatOps F] (main_arg0 : FVec F S100000x128 .f32) (main_arg1 : FVec F S100000x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  main_v8
-- ==== Kernel.lean ====
abbrev S100000x128 : Shape := ⟨2, ![100000, 128]⟩
abbrev S100000x256 : Shape := ⟨2, ![100000, 256]⟩
abbrev S100000x8 : Shape := ⟨2, ![100000, 8]⟩
abbrev S10000x256 : Shape := ⟨2, ![10000, 256]⟩
abbrev S10000x8 : Shape := ⟨2, ![10000, 8]⟩
abbrev S10000x32 : Shape := ⟨2, ![10000, 32]⟩
abbrev S10000 : Shape := ⟨1, ![10000]⟩
abbrev S10000x1 : Shape := ⟨2, ![10000, 1]⟩
abbrev S8 : Shape := ⟨1, ![8]⟩
abbrev S1x8 : Shape := ⟨2, ![1, 8]⟩
abbrev S1 : Shape := ⟨1, ![1]⟩
abbrev S1x1 : Shape := ⟨2, ![1, 1]⟩
abbrev S8x100000x128 : Shape := ⟨3, ![8, 100000, 128]⟩
abbrev S10000x128 : Shape := ⟨2, ![10000, 128]⟩
abbrev S1x10000x128 : Shape := ⟨3, ![1, 10000, 128]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000x256, .f32⟩
  | .hbm, ⟨2, _⟩ => ⟨S100000x8, .f32⟩
  | .hbm, ⟨3, _⟩ => ⟨S8x100000x128, .f32⟩
  | .hbm, ⟨4, _⟩ => ⟨S_, .f32⟩
  | .hbm, ⟨5, _⟩ => ⟨S100000x8, .f32⟩
  | .hbm, ⟨6, _⟩ => ⟨S100000x8, .i1⟩
  | .hbm, ⟨7, _⟩ => ⟨S100000x8, .i1⟩
  | .local _ .vmem, ⟨0, _⟩ => ⟨S10000x256, .f32⟩
  | .local _ .vmem, ⟨1, _⟩ => ⟨S10000x256, .f32⟩
  | .local _ .vmem, ⟨2, _⟩ => ⟨S10000x8, .f32⟩
  | .local _ .vmem, ⟨3, _⟩ => ⟨S10000x8, .f32⟩
  | .local _ .vmem, ⟨4, _⟩ => ⟨S10000x128, .f32⟩
  | .local _ .vmem, ⟨5, _⟩ => ⟨S10000x128, .f32⟩
  | .local _ .vmem, ⟨6, _⟩ => ⟨S10000x8, .f32⟩
  | .local _ .vmem, ⟨7, _⟩ => ⟨S10000x8, .f32⟩
  | .local _ .vmem, ⟨8, _⟩ => ⟨S1x10000x128, .f32⟩
  | .local _ .vmem, ⟨9, _⟩ => ⟨S1x10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S10000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S10000x256_S10000x256_0_0 : ∀ a, (![0, 0] : Fin 2 → Nat) a + S10000x256.size a ≤ S10000x256.size a
  h_S10000x256 : 0 < S10000x256.numel
  slices_S10000x256_o0_0_S10000x32 : S10000x256.Slices ![0, 0] S10000x32
  reduces_S10000x32_S10000 : S10000x32.Reduces [1] S10000
  shapeCasts_S10000_S10000x1 : S10000.ShapeCasts S10000x1
  slices_S10000x256_o0_32_S10000x32 : S10000x256.Slices ![0, 32] S10000x32
  slices_S10000x256_o0_64_S10000x32 : S10000x256.Slices ![0, 64] S10000x32
  slices_S10000x256_o0_96_S10000x32 : S10000x256.Slices ![0, 96] S10000x32
  slices_S10000x256_o0_128_S10000x32 : S10000x256.Slices ![0, 128] S10000x32
  slices_S10000x256_o0_160_S10000x32 : S10000x256.Slices ![0, 160] S10000x32
  slices_S10000x256_o0_192_S10000x32 : S10000x256.Slices ![0, 192] S10000x32
  slices_S10000x256_o0_224_S10000x32 : S10000x256.Slices ![0, 224] S10000x32
  concatenates_S10000x1_S10000x1_S10000x1_S10000x1_S10000x1_S10000x1_S10000x1_S10000x1_S10000x8_d1 : Shape.Concatenates [S10000x1, S10000x1, S10000x1, S10000x1, S10000x1, S10000x1, S10000x1, S10000x1] S10000x8 1
  reduces_S10000x8_S8 : S10000x8.Reduces [0] S8
  shapeCasts_S8_S1x8 : S8.ShapeCasts S1x8
  broadcasts_S1x8_S10000x8 : S1x8.Broadcasts S10000x8
  reduces_S10000x8_S10000 : S10000x8.Reduces [1] S10000
  reduces_S10000x1_S1 : S10000x1.Reduces [0] S1
  shapeCasts_S1_S1x1 : S1.ShapeCasts S1x1
  broadcasts_S1x1_S10000x1 : S1x1.Broadcasts S10000x1
  broadcasts_S10000x1_S10000x8 : S10000x1.Broadcasts S10000x8
  natLt_1_32 : 1 < 32
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  iota_S10000x8_d1_w32 : S10000x8.Iotas .tc 32 [1]
  inb_S10000x128_S10000x128_0_0 : ∀ a, (![0, 0] : Fin 2 → Nat) a + S10000x128.size a ≤ S10000x128.size a
  h_S10000x128 : 0 < S10000x128.numel
  broadcasts_S10000x1_S10000x128 : S10000x1.Broadcasts S10000x128
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  bcast_S_S100000x8 : S_.BroadcastsInDim S100000x8 (![] : Fin 0 → Fin S100000x8.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x8.size a ≤ S100000x8.size a
  hwx0_1 : ∀ i : grid0.Coords, EltTy.bits .f32 = 32 ∨ (Rect.block (s := S100000x8) S10000x8.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x8.size a ≤ S100000x8.size a
  hwx1_1 : ∀ i : grid1.Coords, EltTy.bits .f32 = 32 ∨ (Rect.block (s := S100000x8) S10000x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x10000x128.size a ≤ S8x100000x128.size a
  hwx1_2 : ∀ i : grid1.Coords, EltTy.bits .f32 = 32 ∨ (Rect.block (s := S8x100000x128) S1x10000x128.size (cc1_transform_2 i) (hinb1_2 i)).WholeWords (EltTy.packing .f32)

variable [Facts₀]

abbrev win0_0 : Pipeline.Window sig grid0 :=
  Pipeline.Window.ofSpec (Memref.whole main_arg1) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x256 : Shape := ⟨2, ![100000, 256]⟩
abbrev S100000x8x32 : Shape := ⟨3, ![100000, 8, 32]⟩
abbrev S_ : Shape := ⟨0, ![]⟩
abbrev S100000x8 : Shape := ⟨2, ![100000, 8]⟩
abbrev S10x10000x8 : Shape := ⟨3, ![10, 10000, 8]⟩
abbrev S10x8 : Shape := ⟨2, ![10, 8]⟩
abbrev S10x1x8 : Shape := ⟨3, ![10, 1, 8]⟩
abbrev S10x10000 : Shape := ⟨2, ![10, 10000]⟩
abbrev S10 : Shape := ⟨1, ![10]⟩
abbrev S10x1 : Shape := ⟨2, ![10, 1]⟩
abbrev S10x10000x1 : Shape := ⟨3, ![10, 10000, 1]⟩
abbrev S100000 : Shape := ⟨1, ![100000]⟩
abbrev S100000x1 : Shape := ⟨2, ![100000, 1]⟩
abbrev S8x100000 : Shape := ⟨2, ![8, 100000]⟩
abbrev S8x100000x1 : Shape := ⟨3, ![8, 100000, 1]⟩
abbrev S1x100000x128 : Shape := ⟨3, ![1, 100000, 128]⟩
abbrev S8x100000x128 : Shape := ⟨3, ![8, 100000, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x256, .f32⟩
  | .hbm, ⟨2, _⟩ => ⟨S100000x8x32, .f32⟩
  | .hbm, ⟨3, _⟩ => ⟨S_, .f32⟩
  | .hbm, ⟨4, _⟩ => ⟨S100000x8, .f32⟩
  | .hbm, ⟨5, _⟩ => ⟨S_, .f32⟩
  | .hbm, ⟨6, _⟩ => ⟨S100000x8, .f32⟩
  | .hbm, ⟨7, _⟩ => ⟨S100000x8, .f32⟩
  | .hbm, ⟨8, _⟩ => ⟨S10x10000x8, .f32⟩
  | .hbm, ⟨9, _⟩ => ⟨S_, .f32⟩
  | .hbm, ⟨10, _⟩ => ⟨S10x8, .f32⟩
  | .hbm, ⟨11, _⟩ => ⟨S_, .f32⟩
  | .hbm, ⟨12, _⟩ => ⟨S10x8, .f32⟩
  | .hbm, ⟨13, _⟩ => ⟨S10x8, .f32⟩
  | .hbm, ⟨14, _⟩ => ⟨S10x1x8, .f32⟩
  | .hbm, ⟨15, _⟩ => ⟨S10x10000x8, .f32⟩
  | .hbm, ⟨16, _⟩ => ⟨S10x10000x8, .f32⟩
  | .hbm, ⟨17, _⟩ => ⟨S10x10000x8, .f32⟩
  | .hbm, ⟨18, _⟩ => ⟨S_, .f32⟩
  | .hbm, ⟨19, _⟩ => ⟨S10x8, .f32⟩
  | .hbm, ⟨20, _⟩ => ⟨S10x1x8, .f32⟩
  | .hbm, ⟨21, _⟩ => ⟨S10x10000x8, .f32⟩
  | .hbm, ⟨22, _⟩ => ⟨S10x10000x8, .f32⟩
  | .hbm, ⟨23, _⟩ => ⟨S_, .f32⟩
  | .hbm, ⟨24, _⟩ => ⟨S10x10000, .f32⟩
  | .hbm, ⟨25, _⟩ => ⟨S_, .f32⟩
  | .hbm, ⟨26, _⟩ => ⟨S10, .f32⟩
  | .hbm, ⟨27, _⟩ => ⟨S10x1, .f32⟩
  | .hbm, ⟨28, _⟩ => ⟨S10x10000, .f32⟩
  | .hbm, ⟨29, _⟩ => ⟨S10x10000, .f32⟩
  | .hbm, ⟨30, _⟩ => ⟨S10x10000x1, .f32⟩
  | .hbm, ⟨31, _⟩ => ⟨S10x10000x8, .f32⟩
  | .hbm, ⟨32, _⟩ => ⟨S10x10000x8, .f32⟩
  | .hbm, ⟨33, _⟩ => ⟨S100000x8, .f32⟩
  | .hbm, ⟨34, _⟩ => ⟨S_, .f32⟩
  | .hbm, ⟨35, _⟩ => ⟨S100000, .f32⟩
  | .hbm, ⟨36, _⟩ => ⟨S100000x1, .f32⟩
  | .hbm, ⟨37, _⟩ => ⟨S100000x8, .f32⟩
  | .hbm, ⟨38, _⟩ => ⟨S100000x8, .i1⟩
  | .hbm, ⟨39, _⟩ => ⟨S8x100000, .i1⟩
  | .hbm, ⟨40, _⟩ => ⟨S8x100000x1, .i1⟩
  | .hbm, ⟨41, _⟩ => ⟨S1x100000x128, .f32⟩
  | .hbm, ⟨42, _⟩ => ⟨S_, .f32⟩
  | .hbm, ⟨43, _⟩ => ⟨S_, .f32⟩
  | .hbm, ⟨44, _⟩ => ⟨S8x100000x128, .i1⟩
  | .hbm, ⟨45, _⟩ => ⟨S8x100000x128, .f32⟩
  | .hbm, ⟨46, _⟩ => ⟨S8x100000x128, .f32⟩
  | .hbm, ⟨47, _⟩ => ⟨S8x100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  shapeCasts_S100000x256_S100000x8x32 : S100000x256.ShapeCasts S100000x8x32
  reducesTo_S100000x8x32_S100000x8_d2 : S100000x8x32.ReducesTo [2] S100000x8
  h_S_ : 0 < S_.numel
  bcast_S_S100000x8 : S_.BroadcastsInDim S100000x8 (![] : Fin 0 → Fin S100000x8.rank)
  shapeCasts_S100000x8_S10x10000x8 : S100000x8.ShapeCasts S10x10000x8
  reducesTo_S10x10000x8_S10x8_d1 : S10x10000x8.ReducesTo [1] S10x8
  bcast_S_S10x8 : S_.BroadcastsInDim S10x8 (![] : Fin 0 → Fin S10x8.rank)
  bcast_S10x8_S10x1x8_0_2 : S10x8.BroadcastsInDim S10x1x8 (![0, 2] : Fin 2 → Fin S10x1x8.rank)
  bcast_S10x1x8_S10x10000x8_0_1_2 : S10x1x8.BroadcastsInDim S10x10000x8 (![0, 1, 2] : Fin 3 → Fin S10x10000x8.rank)
  reducesTo_S10x10000x8_S10x10000_d2 : S10x10000x8.ReducesTo [2] S10x10000
  reducesTo_S10x10000_S10_d1 : S10x10000.ReducesTo [1] S10
  bcast_S10_S10x1_0 : S10.BroadcastsInDim S10x1 (![0] : Fin 1 → Fin S10x1.rank)
  bcast_S10x1_S10x10000_0_1 : S10x1.BroadcastsInDim S10x10000 (![0, 1] : Fin 2 → Fin S10x10000.rank)
  bcast_S10x10000_S10x10000x1_0_1 : S10x10000.BroadcastsInDim S10x10000x1 (![0, 1] : Fin 2 → Fin S10x10000x1.rank)
  bcast_S10x10000x1_S10x10000x8_0_1_2 : S10x10000x1.BroadcastsInDim S10x10000x8 (![0, 1, 2] : Fin 3 → Fin S10x10000x8.rank)
  shapeCasts_S10x10000x8_S100000x8 : S10x10000x8.ShapeCasts S100000x8
  reducesTo_S100000x8_S100000_d1 : S100000x8.ReducesTo [1] S100000
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  transposes_S100000x8_S8x100000_1_0 : S100000x8.Transposes [1, 0] S8x100000
  bcast_S8x100000_S8x100000x1_0_1 : S8x100000.BroadcastsInDim S8x100000x1 (![0, 1] : Fin 2 → Fin S8x100000x1.rank)
  bcast_S100000x128_S1x100000x128_1_2 : S100000x128.BroadcastsInDim S1x100000x128 (![1, 2] : Fin 2 → Fin S1x100000x128.rank)
  bcast_S8x100000x1_S8x100000x128_0_1_2 : S8x100000x1.BroadcastsInDim S8x100000x128 (![0, 1, 2] : Fin 3 → Fin S8x100000x128.rank)
  bcast_S1x100000x128_S8x100000x128_0_1_2 : S1x100000x128.BroadcastsInDim S8x100000x128 (![0, 1, 2] : Fin 3 → Fin S8x100000x128.rank)
  bcast_S_S8x100000x128 : S_.BroadcastsInDim S8x100000x128 (![] : Fin 0 → Fin S8x100000x128.rank)

variable [Facts₀]

class Facts : Prop extends Facts₀ where

variable [Facts]
-- ==== Proof.Spec.lean ====
/-
  The mathematics both programs compute, over the extended reals, stated once.

  A block is 10000 consecutive rows of the 256-column input. Within a block:
  each row's 256 entries fall into 8 groups of 32 consecutive columns, and a group's mean is its sum
  times 1/32 (the binary fraction 2⁻⁵, kept as its word); each of the 8 group columns is shifted by its
  maximum over the block's rows, exponentiated, and divided by its sum over the rows (a softmax down the
  rows); a row's weight in group c is its softmax entry times (the block's total of all softmax entries minus
  the row's own total); a row selects the groups whose weight equals the row's largest weight.
  The whole array is ten such blocks one after the other, and the two results are the selection bit per
  (row, group) and, per group, the second input's row where selected and zero where not.
-/
import Idealize.ShloMosaic.PureOps.Ideal
import Idealize.ShloMosaic.Lib.ValueIdx
import Idealize.ShloMosaic.PureOps.Ideal.Laws

noncomputable section

open scoped BigOperators

namespace Cert.NodeMask

open Idealize.ShloMosaic Idealize.ShloMosaic.ValueIdx

/-- Column k of group c: 32·c + k. -/
def col (c : Fin 8) (k : Fin 32) : Fin 256 := ⟨32 * c.val + k.val, by omega⟩

/-- The word of 1/32 and of -∞, as the programs spell them. -/
abbrev w32nd : BitVec 32 := 0x3D000000#32
abbrev wNegInf : BitVec 32 := 0xFF800000#32

/-- A group's mean: the sum of its 32 entries times 1/32. -/
def gmean (B : Fin 10000 → Fin 256 → EReal) (r : Fin 10000) (c : Fin 8) : EReal :=
  (∑ k : Fin 32, B r (col c k)) * Ideal.ofBits .f32 w32nd

/-- A group column's maximum over the block's rows (from -∞). -/
def colMax (B : Fin 10000 → Fin 256 → EReal) (c : Fin 8) : EReal :=
  (Finset.univ : Finset (Fin 10000)).fold max (Ideal.ofBits .f32 wNegInf) (fun r => gmean B r c)

/-- The shifted exponential. -/
def expo (B : Fin 10000 → Fin 256 → EReal) (r : Fin 10000) (c : Fin 8) : EReal :=
  Ideal.exp (gmean B r c - colMax B c)

/-- Its sum down the rows. -/
def colSum (B : Fin 10000 → Fin 256 → EReal) (c : Fin 8) : EReal := ∑ r : Fin 10000, expo B r c

/-- The softmax down the rows. -/
def soft (B : Fin 10000 → Fin 256 → EReal) (r : Fin 10000) (c : Fin 8) : EReal :=
  Ideal.div (expo B r c) (colSum B c)

/-- A row's total over the 8 groups, and the block's total. -/
def rowSum (B : Fin 10000 → Fin 256 → EReal) (r : Fin 10000) : EReal := ∑ c : Fin 8, soft B r c
def total (B : Fin 10000 → Fin 256 → EReal) : EReal := ∑ r : Fin 10000, rowSum B r

/-- The weight of group c in row r. -/
def weight (B : Fin 10000 → Fin 256 → EReal) (r : Fin 10000) (c : Fin 8) : EReal :=
  soft B r c * (total B - rowSum B r)

/-- A row's largest weight (from -∞). -/
def rowMax (B : Fin 10000 → Fin 256 → EReal) (r : Fin 10000) : EReal :=
  (Finset.univ : Finset (Fin 8)).fold max (Ideal.ofBits .f32 wNegInf) (fun c => weight B r c)

/-- The selection bit: the weight equals the row's largest. -/
def sel (B : Fin 10000 → Fin 256 → EReal) (r : Fin 10000) (c : Fin 8) : BitVec 1 :=
  Ideal.cmp .oeq (weight B r c) (rowMax B r)

/-- A bit as the number 0 or 1. -/
def bitVal (b : BitVec 1) : EReal := ((b.toNat : ℝ) : EReal)

/-! ## The whole array: ten blocks of 10000 rows -/

def chunk (n : Fin 100000) : Fin 10 := ⟨n.val / 10000, by omega⟩
def inChunk (n : Fin 100000) : Fin 10000 := ⟨n.val % 10000, by omega⟩
def rowOf (q : Fin 10) (r : Fin 10000) : Fin 100000 := ⟨q.val * 10000 + r.val, by omega⟩

theorem chunk_rowOf (q : Fin 10) (r : Fin 10000) : chunk (rowOf q r) = q := by
  apply Fin.ext; show (q.val * 10000 + r.val) / 10000 = q.val; omega
theorem inChunk_rowOf (q : Fin 10) (r : Fin 10000) : inChunk (rowOf q r) = r := by
  apply Fin.ext; show (q.val * 10000 + r.val) % 10000 = r.val; omega
theorem rowOf_chunk (n : Fin 100000) : rowOf (chunk n) (inChunk n) = n := by
  apply Fin.ext; show n.val / 10000 * 10000 + n.val % 10000 = n.val; omega

/-- Block q of the 256-column array. -/
def blockOf (z : (⟨2, ![100000, 256]⟩ : Shape).Idx → EReal) (q : Fin 10) : Fin 10000 → Fin 256 → EReal :=
  fun r k => z (ix2 (rowOf q r) k)

/-- The selection bit of row n and group c. -/
def maskAt (z : (⟨2, ![100000, 256]⟩ : Shape).Idx → EReal) (n : Fin 100000) (c : Fin 8) : BitVec 1 :=
  sel (blockOf z (chunk n)) (inChunk n) c

/-- Group c's copy of the other input: row n where selected, zero where not. -/
def partAt (x : (⟨2, ![100000, 128]⟩ : Shape).Idx → EReal) (z : (⟨2, ![100000, 256]⟩ : Shape).Idx → EReal)
    (c : Fin 8) (n : Fin 100000) (f : Fin 128) : EReal :=
  Scalar.select (maskAt z n c) (x (ix2 n f)) (Ideal.ofBits .f32 0x00000000#32)

/-- The two results as arrays. -/
def maskArr (z : (⟨2, ![100000, 256]⟩ : Shape).Idx → EReal) : (⟨2, ![100000, 8]⟩ : Shape).Idx → BitVec 1 :=
  fun j => maskAt z (j 0) (j 1)
def partsArr (x : (⟨2, ![100000, 128]⟩ : Shape).Idx → EReal) (z : (⟨2, ![100000, 256]⟩ : Shape).Idx → EReal) :
    (⟨3, ![8, 100000, 128]⟩ : Shape).Idx → EReal :=
  fun j => partAt x z (j 0) (j 1) (j 2)

/-! ## Two facts about bits as numbers -/

theorem bitVal_of_one {b : BitVec 1} (h : b = 1) : bitVal b = 1 := by subst h; simp [bitVal]
theorem bitVal_of_ne_one {b : BitVec 1} (h : b ≠ 1) : bitVal b = 0 := by
  have : b = 0 := eq_zero_of_ne_one h
  subst this; simp [bitVal]

/-- A number times a bit's value is the number where the bit is set and zero where not. -/
theorem mul_bitVal (a : EReal) (b : BitVec 1) :
    a * bitVal b = Scalar.select b a (Ideal.ofBits .f32 0x00000000#32) := by
  unfold Scalar.select
  by_cases h : b = 1
  · rw [if_pos h, bitVal_of_one h, mul_one]
  · rw [if_neg h, bitVal_of_ne_one h, mul_zero, Ideal.ofBits_zero_f32]

end Cert.NodeMask

end
-- ==== Proof.MaskBlock.lean ====
/-
  One block of the first kernel, read at an index: the value stored at row r, group c of the block's
  8-column result is the selection bit of Spec.lean (as the number 0 or 1), of the block's entries.
-/
import proofs.«159769_j13365938225811_1_alg».proof.Proof.Gen.KernelIdeal.Skeleton
import proofs.«159769_j13365938225811_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

open scoped BigOperators

namespace Cert.NodeMask.Block

open Idealize.ShloMosaic Idealize.ShloMosaic.ValueIdx Cert.KernelIdeal Cert.KernelIdeal.Gen Cert.NodeMask

/-! ## Column forms of the layout operations, read at coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, 1]` reads its one entry everywhere. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

end Layout

/-! ## A reduction of a matrix over one of its two axes, read at a coordinate -/

section Reduce

/-- Over the columns: the index inserted on axis 1 of row `r` is `(r, k)`. -/
theorem lift_axis1 {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- Over the rows: the index inserted on axis 0 of column `c` is `(k, c)`. -/
theorem lift_axis0 {a b : ℕ} (h : (⟨2, ![a, b]⟩ : Shape).Reduces [0] ⟨1, ![b]⟩) (c : Fin b) (k : Fin a) :
    h.lift (ix1 c) k = ix2 k c := by
  funext d
  match d with
  | ⟨0, _⟩ => exact Fin.ext rfl
  | ⟨1, _⟩ => exact Fin.ext rfl

variable {φ : FTy}

/-- A row's sum. -/
theorem sum_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_axis1 h r k))

/-- A column's sum. -/
theorem sum_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_axis0 h c k))

/-- A row's maximum, from the accumulator's value. -/
theorem max_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (Finset.fold_congr fun k _ => congrArg src (lift_axis1 h r k))

/-- A column's maximum, from the accumulator's value. -/
theorem max_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) :=
  (Ideal.multiReduction_maximumf_single src acc h hφ hacc (ix1 c)).trans
    (Finset.fold_congr fun k _ => congrArg src (lift_axis0 h c k))

end Reduce

/-! ## A group's mean as the kernel computes it -/

/-- A 10000 × 256 block as a function of its two coordinates. -/
def coords (zb : Vec Ideal S10000x256 .f32) : Fin 10000 → Fin 256 → EReal := fun r k => zb (ix2 r k)

/-- The 32 columns from `32·c` on, summed along the row and multiplied by 1/32, are group `c`'s mean. -/
theorem gmean_col (zb : Vec Ideal S10000x256 .f32) (o : ℕ) (hs : S10000x256.Slices ![0, o] S10000x32)
    (hr : S10000x32.Reduces [1] S10000) (hφ : FKind.Formats .f32) (hacc : (0x00000000#32 : BitVec 32) = FKind.add.neutral .f32 hφ)
    (hsc : S10000.ShapeCasts S10000x1) (c : Fin 8) (ho : o = 32 * c.val) (r : Fin 10000) (u : Fin 1) :
    mulf (shapeCast S10000x1 (multiReduction .add [1] S10000 (extractStridedSlice S10000x32 ![0, o] zb hs : FVec Ideal S10000x32 .f32)
        0x00000000#32 hr hφ hacc) hsc) (broadcast S10000x1 (Scalar.ofBits .f32 0x3D000000#32)) (ix2 r u)
      = gmean (coords zb) r c := by
  subst ho
  show shapeCast S10000x1 _ hsc (ix2 r u) * Ideal.ofBits .f32 w32nd = _
  rw [shapeCast_a_a1_apply, sum_axis1]
  unfold gmean coords
  congr 1
  exact Finset.sum_congr rfl fun k _ => slice2_axis1_apply (32 * c.val) zb hs r k (col c k) rfl

theorem pay2_apply (zb : Vec Ideal S10000x256 .f32) (r : Fin 10000) (u : Fin 1) :
    k0_pay2 (F := Ideal) zb (ix2 r u) = gmean (coords zb) r 0 := by
  unfold k0_pay2; exact gmean_col zb 0 _ _ _ _ _ 0 rfl r u
theorem pay3_apply (zb : Vec Ideal S10000x256 .f32) (r : Fin 10000) (u : Fin 1) :
    k0_pay3 (F := Ideal) zb (ix2 r u) = gmean (coords zb) r 1 := by
  unfold k0_pay3; exact gmean_col zb 32 _ _ _ _ _ 1 rfl r u
theorem pay4_apply (zb : Vec Ideal S10000x256 .f32) (r : Fin 10000) (u : Fin 1) :
    k0_pay4 (F := Ideal) zb (ix2 r u) = gmean (coords zb) r 2 := by
  unfold k0_pay4; exact gmean_col zb 64 _ _ _ _ _ 2 rfl r u
theorem pay5_apply (zb : Vec Ideal S10000x256 .f32) (r : Fin 10000) (u : Fin 1) :
    k0_pay5 (F := Ideal) zb (ix2 r u) = gmean (coords zb) r 3 := by
  unfold k0_pay5; exact gmean_col zb 96 _ _ _ _ _ 3 rfl r u
theorem pay6_apply (zb : Vec Ideal S10000x256 .f32) (r : Fin 10000) (u : Fin 1) :
    k0_pay6 (F := Ideal) zb (ix2 r u) = gmean (coords zb) r 4 := by
  unfold k0_pay6; exact gmean_col zb 128 _ _ _ _ _ 4 rfl r u
theorem pay7_apply (zb : Vec Ideal S10000x256 .f32) (r : Fin 10000) (u : Fin 1) :
    k0_pay7 (F := Ideal) zb (ix2 r u) = gmean (coords zb) r 5 := by
  unfold k0_pay7; exact gmean_col zb 160 _ _ _ _ _ 5 rfl r u
theorem pay8_apply (zb : Vec Ideal S10000x256 .f32) (r : Fin 10000) (u : Fin 1) :
    k0_pay8 (F := Ideal) zb (ix2 r u) = gmean (coords zb) r 6 := by
  unfold k0_pay8; exact gmean_col zb 192 _ _ _ _ _ 6 rfl r u
theorem pay9_apply (zb : Vec Ideal S10000x256 .f32) (r : Fin 10000) (u : Fin 1) :
    k0_pay9 (F := Ideal) zb (ix2 r u) = gmean (coords zb) r 7 := by
  unfold k0_pay9; exact gmean_col zb 224 _ _ _ _ _ 7 rfl r u

/-! ## Eight columns side by side -/

/-- Eight one-column pieces laid side by side read, at `(r, c)`, piece `c` at row `r`. -/
theorem concat8_apply {α : Type} (v : Fin 8 → (S10000x1.Idx → α))
    (h : Shape.Concatenates [S10000x1, S10000x1, S10000x1, S10000x1, S10000x1, S10000x1, S10000x1, S10000x1] S10000x8 1)
    (r : Fin 10000) (c : Fin 8) :
    concatenate S10000x8 1 [⟨S10000x1, v 0⟩, ⟨S10000x1, v 1⟩, ⟨S10000x1, v 2⟩, ⟨S10000x1, v 3⟩, ⟨S10000x1, v 4⟩,
        ⟨S10000x1, v 5⟩, ⟨S10000x1, v 6⟩, ⟨S10000x1, v 7⟩] h (ix2 r c) = v c (ix2 r (0 : Fin 1)) := by
  refine concatenate_ofFn_unit_apply (t := S10000x8) (s₁ := S10000x1) 1 v h rfl rfl (ix2 r c) c rfl (ix2 r (0 : Fin 1)) fun b hb => ?_
  match b, hb with
  | ⟨0, _⟩, _ => rfl
  | ⟨1, _⟩, hb => exact absurd rfl hb

/-! ## Vectors named by their coordinates -/

/-- The 10000 × 8 vector with entry `m r c` at `(r, c)`. -/
def ofM (m : Fin 10000 → Fin 8 → EReal) : FVec Ideal S10000x8 .f32 := fun j => m (j 0) (j 1)
/-- The 10000 × 1 column with entry `w r` in row `r`. -/
def ofC (w : Fin 10000 → EReal) : FVec Ideal S10000x1 .f32 := fun j => w (j 0)

theorem eq_ofM (x : FVec Ideal S10000x8 .f32) (m : Fin 10000 → Fin 8 → EReal) (hx : ∀ r c, x (ix2 r c) = m r c) : x = ofM m := by
  funext j
  obtain ⟨r, c, rfl⟩ : ∃ (r : Fin 10000) (c : Fin 8), j = ix2 r c := ⟨j 0, j 1, eq_ix2 j⟩
  exact hx r c

theorem eq_ofC (y : FVec Ideal S10000x1 .f32) (w : Fin 10000 → EReal) (hy : ∀ r u, y (ix2 r u) = w r) : y = ofC w := by
  funext j
  obtain ⟨r, u, rfl⟩ : ∃ (r : Fin 10000) (u : Fin 1), j = ix2 r u := ⟨j 0, j 1, eq_ix2 j⟩
  exact hy r u

/-! ### The pointwise operations -/

theorem subf_ofM (a b : Fin 10000 → Fin 8 → EReal) : subf (ofM a) (ofM b) = ofM fun r c => a r c - b r c := rfl
theorem exp_ofM (a : Fin 10000 → Fin 8 → EReal) : exp (ofM a) = ofM fun r c => Ideal.exp (a r c) := rfl
theorem divf_ofM (a b : Fin 10000 → Fin 8 → EReal) : divf (ofM a) (ofM b) = ofM fun r c => Ideal.div (a r c) (b r c) := rfl
theorem mulf_ofM (a b : Fin 10000 → Fin 8 → EReal) : mulf (ofM a) (ofM b) = ofM fun r c => a r c * b r c := rfl
theorem subf_ofC (a b : Fin 10000 → EReal) : subf (ofC a) (ofC b) = ofC fun r => a r - b r := rfl

/-! ### The reductions with their casts and broadcasts -/

/-- Eight columns whose rows are known, side by side. -/
theorem concat_cols (v : Fin 8 → FVec Ideal S10000x1 .f32) (g : Fin 10000 → Fin 8 → EReal)
    (hv : ∀ r c, v c (ix2 r (0 : Fin 1)) = g r c)
    (h : Shape.Concatenates [S10000x1, S10000x1, S10000x1, S10000x1, S10000x1, S10000x1, S10000x1, S10000x1] S10000x8 1) :
    concatenate S10000x8 1 [⟨S10000x1, v 0⟩, ⟨S10000x1, v 1⟩, ⟨S10000x1, v 2⟩, ⟨S10000x1, v 3⟩, ⟨S10000x1, v 4⟩,
        ⟨S10000x1, v 5⟩, ⟨S10000x1, v 6⟩, ⟨S10000x1, v 7⟩] h = ofM g :=
  eq_ofM _ _ fun r c => (concat8_apply v h r c).trans (hv r c)

/-- Each column's maximum down the rows, in every row. -/
theorem colmax_eq (m : Fin 10000 → Fin 8 → EReal) (h : S10000x8.Reduces [0] S8) (hφ : FKind.Formats .f32)
    (hacc : (0xFF800000#32 : BitVec 32) = 0xFF800000#32) (hs : S8.ShapeCasts S1x8) (hb : S1x8.Broadcasts S10000x8) :
    broadcastTo S10000x8 (shapeCast S1x8 (multiReduction .maximumf [0] S8 (ofM m) 0xFF800000#32 h hφ hacc) hs) hb
      = ofM fun _ c => (Finset.univ : Finset (Fin 10000)).fold max (Ideal.ofBits .f32 wNegInf) (fun r => m r c) :=
  eq_ofM _ _ fun r c => by
    rw [broadcastTo_1b_ab_apply, shapeCast_a_1a_apply]
    exact max_axis0 (ofM m) _ h hφ hacc c

/-- Each column's sum down the rows, in every row. -/
theorem colsum_eq (m : Fin 10000 → Fin 8 → EReal) (h : S10000x8.Reduces [0] S8) (hφ : FKind.Formats .f32)
    (hacc : (0x00000000#32 : BitVec 32) = 0x00000000#32) (hs : S8.ShapeCasts S1x8) (hb : S1x8.Broadcasts S10000x8) :
    broadcastTo S10000x8 (shapeCast S1x8 (multiReduction .add [0] S8 (ofM m) 0x00000000#32 h hφ hacc) hs) hb
      = ofM fun _ c => ∑ r : Fin 10000, m r c :=
  eq_ofM _ _ fun r c => by
    rw [broadcastTo_1b_ab_apply, shapeCast_a_1a_apply]
    exact sum_axis0 (ofM m) _ h hφ hacc c

/-- Each row's sum over the 8 columns, as a column. -/
theorem rowsum_eq (m : Fin 10000 → Fin 8 → EReal) (h : S10000x8.Reduces [1] S10000) (hφ : FKind.Formats .f32)
    (hacc : (0x00000000#32 : BitVec 32) = 0x00000000#32) (hs : S10000.ShapeCasts S10000x1) :
    shapeCast S10000x1 (multiReduction .add [1] S10000 (ofM m) 0x00000000#32 h hφ hacc) hs
      = ofC fun r => ∑ c : Fin 8, m r c :=
  eq_ofC _ _ fun r u => by
    rw [shapeCast_a_a1_apply]
    exact sum_axis1 (ofM m) _ h hφ hacc r

/-- A column's total, in every row. -/
theorem total_eq (w : Fin 10000 → EReal) (h : S10000x1.Reduces [0] S1) (hφ : FKind.Formats .f32)
    (hacc : (0x00000000#32 : BitVec 32) = 0x00000000#32) (hs : S1.ShapeCasts S1x1) (hb : S1x1.Broadcasts S10000x1) :
    broadcastTo S10000x1 (shapeCast S1x1 (multiReduction .add [0] S1 (ofC w) 0x00000000#32 h hφ hacc) hs) hb
      = ofC fun _ => ∑ r : Fin 10000, w r :=
  eq_ofC _ _ fun r u => by
    rw [broadcastTo_11_a1_apply, shapeCast_a_1a_apply]
    exact sum_axis0 (ofC w) _ h hφ hacc 0

/-- A column repeated across the 8 columns. -/
theorem bcast_eq (w : Fin 10000 → EReal) (hb : S10000x1.Broadcasts S10000x8) :
    broadcastTo S10000x8 (ofC w) hb = ofM fun r _ => w r :=
  eq_ofM _ _ fun r c => broadcastTo_a1_ab_apply (ofC w) hb r c

/-- Each row's maximum over the 8 columns, in every column. -/
theorem rowmax_eq (m : Fin 10000 → Fin 8 → EReal) (h : S10000x8.Reduces [1] S10000) (hφ : FKind.Formats .f32)
    (hacc : (0xFF800000#32 : BitVec 32) = 0xFF800000#32) (hs : S10000.ShapeCasts S10000x1) (hb : S10000x1.Broadcasts S10000x8) :
    broadcastTo S10000x8 (shapeCast S10000x1 (multiReduction .maximumf [1] S10000 (ofM m) 0xFF800000#32 h hφ hacc) hs) hb
      = ofM fun r _ => (Finset.univ : Finset (Fin 8)).fold max (Ideal.ofBits .f32 wNegInf) (fun c => m r c) :=
  eq_ofM _ _ fun r c => by
    rw [broadcastTo_a1_ab_apply, shapeCast_a_a1_apply]
    exact max_axis1 (ofM m) _ h hφ hacc r

/-- The comparison bit, widened and converted, is the bit as a number. -/
theorem bit_apply (a b : Fin 10000 → Fin 8 → EReal) (hlt : 1 < 32) (r : Fin 10000) (c : Fin 8) :
    (sitofp .f32 (extui 32 (cmpf .oeq (ofM a) (ofM b)) hlt) : FVec Ideal S10000x8 .f32) (ix2 r c)
      = bitVal (Ideal.cmp .oeq (a r c) (b r c)) := by
  show ((((Ideal.cmp .oeq (a r c) (b r c)).setWidth 32).toInt : ℝ) : EReal)
      = (((Ideal.cmp .oeq (a r c) (b r c)).toNat : ℝ) : EReal)
  rw [toInt_setWidth_bit]
  norm_cast

/-! ## The whole payload -/

/-- Over eight columns that are the group means of `B`, the stored value at `(r, c)` is the selection bit as a number. -/
theorem pay1_of_cols (v : Fin 8 → FVec Ideal S10000x1 .f32) (B : Fin 10000 → Fin 256 → EReal)
    (hv : ∀ r c, v c (ix2 r (0 : Fin 1)) = gmean B r c) (r : Fin 10000) (c : Fin 8) :
    k0_pay1 (F := Ideal) (v 0) (v 1) (v 2) (v 3) (v 4) (v 5) (v 6) (v 7) (ix2 r c) = bitVal (sel B r c) := by
  unfold k0_pay1
  rw [concat_cols v (gmean B) hv, colmax_eq, subf_ofM, exp_ofM, colsum_eq, divf_ofM, rowsum_eq, total_eq, subf_ofC, bcast_eq,
    mulf_ofM, rowmax_eq]
  refine (bit_apply _ _ _ r c).trans ?_
  rfl

/-- The stored value at (r, c): the bit "row r's weight in group c is the row's largest", as 0 or 1. -/
theorem mask_block (zb : Vec Ideal S10000x256 .f32) (r : Fin 10000) (c : Fin 8) :
    k0_pay1 (F := Ideal) (k0_pay2 zb) (k0_pay3 zb) (k0_pay4 zb) (k0_pay5 zb) (k0_pay6 zb) (k0_pay7 zb) (k0_pay8 zb) (k0_pay9 zb) (ix2 r c)
      = bitVal (sel (coords zb) r c) :=
  pay1_of_cols ![k0_pay2 zb, k0_pay3 zb, k0_pay4 zb, k0_pay5 zb, k0_pay6 zb, k0_pay7 zb, k0_pay8 zb, k0_pay9 zb] (coords zb)
    (fun r c => by
      match c with
      | ⟨0, _⟩ => exact pay2_apply zb r 0
      | ⟨1, _⟩ => exact pay3_apply zb r 0
      | ⟨2, _⟩ => exact pay4_apply zb r 0
      | ⟨3, _⟩ => exact pay5_apply zb r 0
      | ⟨4, _⟩ => exact pay6_apply zb r 0
      | ⟨5, _⟩ => exact pay7_apply zb r 0
      | ⟨6, _⟩ => exact pay8_apply zb r 0
      | ⟨7, _⟩ => exact pay9_apply zb r 0) r c

end Cert.NodeMask.Block

end
-- ==== Proof.PartsBlock.lean ====
/-
  One block of the second kernel, read at an index. The grid point's group index g selects, with an iota
  comparison and a sum over the 8 columns, column g of the 8-column block (the other seven terms are zero), and the
  128-column block is multiplied by that column, broadcast along the rows: the stored value at (r, f) is the block's
  entry (r, f) times the block's entry (r, g) of the 8-column input. When that input holds bits as the numbers 0 and 1,
  the product is the entry where the bit is set and zero where not.
-/
import proofs.«159769_j13365938225811_1_alg».proof.Proof.Gen.KernelIdeal.Skeleton
import proofs.«159769_j13365938225811_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.NodeMask.Parts

open Idealize.ShloMosaic Idealize.ShloMosaic.ValueIdx Cert.KernelIdeal Cert.KernelIdeal.Gen Cert.NodeMask

/-- A vector cast to a one-column matrix reads, at (r, 0), the vector at r. -/
theorem shapeCast_col_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    omega)

/-- A one-column matrix broadcast along its rows reads, at (r, f), the column at r. -/
theorem broadcastTo_col_apply {α : Type} {a b : ℕ} (hb : b ≠ 1) (v : (⟨2, ![a, 1]⟩ : Shape).Idx → α)
    (h : (⟨2, ![a, 1]⟩ : Shape).Broadcasts ⟨2, ![a, b]⟩) (r : Fin a) (f : Fin b) :
    broadcastTo ⟨2, ![a, b]⟩ v h (ix2 r f) = v (ix2 r (0 : Fin 1)) := by
  refine broadcastTo_apply v h (ix2 r f) (ix2 r (0 : Fin 1)) fun ax => ?_
  match ax with
  | ⟨0, _⟩ =>
    show r.val = if a = 1 then 0 else r.val
    split
    · have := r.isLt; omega
    · rfl
  | ⟨1, _⟩ => rfl

/-- The stored value at (r, f): the entry times the sum of the 8-column row with every column but the point's replaced by zero. -/
theorem parts_block (i : grid1.Coords) (mb : Vec Ideal S10000x8 .f32) (xb : Vec Ideal S10000x128 .f32)
    (r : Fin 10000) (f : Fin 128) :
    k1_pay1 (F := Ideal) i mb xb (ix3 (0 : Fin 1) r f)
      = xb (ix2 r f) * ∑ j : Fin 8, Scalar.select (IntOp.cmpi .eq (BitVec.ofNat 32 j.val) (BitVec.ofNat 32 (i 1).val)) (mb (ix2 r j)) (Ideal.ofBits .f32 0x00000000#32) := by
  unfold k1_pay1
  refine (shapeCast_ab_1ab_apply _ _ 0 r f).trans ?_
  rw [mulf_apply]
  refine congrArg (xb (ix2 r f) * ·) ?_
  refine (broadcastTo_col_apply (by decide) _ _ r f).trans ?_
  refine (shapeCast_col_apply _ _ r 0).trans ?_
  refine (Ideal.multiReduction_add_single _ _ _ _ _ (ix1 r)).trans ?_
  refine Finset.sum_congr rfl fun (j : Fin 8) _ => ?_
  have hl : reduces_S10000x8_S10000.lift (ix1 r) j = ix2 r j := by
    funext a; apply Fin.ext
    match a with
    | ⟨0, _⟩ => rfl
    | ⟨1, _⟩ => rfl
  rw [hl]
  rw [select_apply, shapeCast_self]
  show Scalar.select (IntOp.cmpi .eq (iota .tc S10000x8 32 [1] iota_S10000x8_d1_w32 (ix2 r j)) (BitVec.ofNat 32 (i 1).val)) (mb (ix2 r j)) (Ideal.ofBits .f32 0#32) = _
  rw [iota_single_apply]

/-- Of eight values, each kept where its position is g and replaced by zero elsewhere, the sum is the one at g. -/
theorem sum_pick (g : Fin 8) (gv : Nat) (hg : gv = g.val) (v : Fin 8 → EReal) :
    ∑ j : Fin 8, Scalar.select (IntOp.cmpi .eq (BitVec.ofNat 32 j.val) (BitVec.ofNat 32 gv)) (v j) (Ideal.ofBits .f32 0x00000000#32) = v g := by
  subst hg
  rw [Finset.sum_eq_single g]
  · unfold Scalar.select; exact if_pos (StableHlo.Predicate.cmpi_eq_iff.mpr rfl)
  · intro j _ hj
    unfold Scalar.select
    refine (if_neg ?_).trans Ideal.ofBits_zero_f32
    intro h
    have h1 := StableHlo.Predicate.cmpi_eq_iff.mp h
    have h2 := congrArg BitVec.toNat h1
    simp only [BitVec.toNat_ofNat] at h2
    apply hj; apply Fin.ext; have := j.isLt; have := g.isLt; omega
  · intro h; exact absurd (Finset.mem_univ g) h

/-- With the 8-column block holding bits as numbers, the stored value at (r, f) is the row's entry where the
    bit of the point's group is set and zero where not. -/
theorem parts_block_bit (i : grid1.Coords) (g : Fin 8) (hg : (i 1).val = g.val) (mb : Vec Ideal S10000x8 .f32)
    (xb : Vec Ideal S10000x128 .f32) (b : Fin 10000 → Fin 8 → BitVec 1)
    (hmb : ∀ r j, mb (ix2 r j) = bitVal (b r j)) (r : Fin 10000) (f : Fin 128) :
    k1_pay1 (F := Ideal) i mb xb (ix3 (0 : Fin 1) r f)
      = Scalar.select (b r g) (xb (ix2 r f)) (Ideal.ofBits .f32 0x00000000#32) := by
  rw [parts_block, sum_pick g _ hg (fun j => mb (ix2 r j)), hmb, mul_bitVal]

end Cert.NodeMask.Parts

end
-- ==== Proof.KernelValue.lean ====
/-
  The kernel program's two results as whole arrays, as functions of its two arguments.

  First launch: grid point t (of 10) reads rows 10000·t … 10000·t + 9999 of the 256-column argument and writes the
  same rows of an 8-column array: the selection bits of that block, as the numbers 0 and 1. The ten blocks tile the
  array, so it ends holding the bit of every (row, group).
  Second launch: grid point t (of 80) is (row block t / 8, group t % 8); it reads the row block of the 128-column
  argument and of the bit array, and writes block (group, row block) of the [8, 100000, 128] result: each row of the
  argument times the row's bit for that group, which is the row where the bit is set and zero where not. The 80 blocks
  tile the result.
  After the launches the host compares the bit array with zero: a number that is 0 or 1 differs from zero exactly where
  the bit is set.
-/
import proofs.«159769_j13365938225811_1_alg».proof.Proof.KernelIdealRun
import proofs.«159769_j13365938225811_1_alg».proof.Proof.MaskBlock
import proofs.«159769_j13365938225811_1_alg».proof.Proof.PartsBlock
import proofs.«159769_j13365938225811_1_alg».proof.Proof.Spec
import Idealize.ShloMosaic.Lib.Pipeline.Value
import Idealize.ShloMosaic.Lib.ValueIdx
import Idealize.ShloMosaic.Lib.StableHlo.Run

set_option maxRecDepth 16384

noncomputable section

namespace Cert.NodeMask.Run

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.NodeMask

variable (m : (ℓ : Loc nD τ sig) → Buf (Elt Ideal) ℓ) (ρ : Dev nD → PrngReg)

/-- The two argument arrays as launched. -/
abbrev zArr (c : Dev nD) : FVec Ideal S100000x256 .f32 := m ((c : Thread nD τ).loc main_arg1)
abbrev xArr (c : Dev nD) : FVec Ideal S100000x128 .f32 := m ((c : Thread nD τ).loc main_arg0)

/-- The selection bits as numbers: what the first launch leaves. -/
def maskF (c : Dev nD) : FVec Ideal S100000x8 .f32 := fun j => bitVal (maskAt (zArr m c) (j 0) (j 1))

/-- The selected rows: what the second launch leaves. -/
def partsF (c : Dev nD) : FVec Ideal S8x100000x128 .f32 := partsArr (xArr m c) (zArr m c)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first launch -/

/-- Its index maps over the grid: both windows sit at row block t, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t. -/
abbrev zblk (c : Dev nD) (t : Fin cfg0.N) : Vec Ideal S10000x256 .f32 := iblk0 (V0 m ρ) c 0 t

/-- Row r of the block at point t is row 10000·t + r of the argument. -/
theorem zblk_apply (c : Dev nD) (t : Fin cfg0.N) (ht : t.val < 10) (r : Fin 10000) (k : Fin 256) :
    zblk m ρ c t (ix2 r k) = zArr m c (ix2 (rowOf ⟨t.val, ht⟩ r) k) := by
  obtain ⟨e0, e1, e2, e3⟩ := idx_facts0 t
  show V0 m ρ c main_arg1 (((cfg0.win 0).blk t).view.emb (ix2 r k)) = V0 m ρ c main_arg1 (ix2 (rowOf ⟨t.val, ht⟩ r) k)
  refine congrArg _ ?_
  funext a; apply Fin.ext
  match a with
  | ⟨0, _⟩ => show win0_0.index t (0 : Fin 2) * 10000 + 1 * r.val = t.val * 10000 + r.val; omega
  | ⟨1, _⟩ => show win0_0.index t (1 : Fin 2) * 256 + 1 * k.val = k.val; omega

theorem coords_zblk (c : Dev nD) (t : Fin cfg0.N) (ht : t.val < 10) :
    Block.coords (zblk m ρ c t) = blockOf (zArr m c) ⟨t.val, ht⟩ := by
  funext r k; exact zblk_apply m ρ c t ht r k

/-- What point t writes back is block t of the bit array. -/
theorem flushed_mask (c : Dev nD) (t : Fin cfg0.N) :
    (dat0 (V0 m ρ) c).flushed 1 t = ((cfg0.win 1).blk t).view.read (Elt Ideal) (maskF m c) := by
  have ht : t.val < 10 := lt_of_lt_of_eq t.isLt N_0
  obtain ⟨e0, e1, e2, e3⟩ := idx_facts0 t
  show (cfg0.win 1).cut (grid0.coords t) ((dat0 (V0 m ρ) c).after 1 t) = _
  rw [after0_1]
  unfold out0_1
  rw [View.canon_unit_zero hz2]
  simp only [View.ld_unit_zero (S := S10000x256) hz2]
  funext y
  obtain ⟨r, g, rfl⟩ : ∃ (r : Fin 10000) (g : Fin 8), y = ix2 r g := ⟨y 0, y 1, eq_ix2 y⟩
  show k0_pay1 (F := Ideal) (k0_pay2 (zblk m ρ c t)) (k0_pay3 (zblk m ρ c t)) (k0_pay4 (zblk m ρ c t)) (k0_pay5 (zblk m ρ c t)) (k0_pay6 (zblk m ρ c t)) (k0_pay7 (zblk m ρ c t)) (k0_pay8 (zblk m ρ c t)) (k0_pay9 (zblk m ρ c t)) (ix2 r g)
      = maskF m c (((cfg0.win 1).blk t).view.emb (ix2 r g))
  rw [Block.mask_block, coords_zblk m ρ c t ht]
  have hemb : ((cfg0.win 1).blk t).view.emb (ix2 r g) = ix2 (rowOf ⟨t.val, ht⟩ r) g := by
    funext a; apply Fin.ext
    match a with
    | ⟨0, _⟩ => show win0_1.index t (0 : Fin 2) * 10000 + 1 * r.val = t.val * 10000 + r.val; omega
    | ⟨1, _⟩ => show win0_1.index t (1 : Fin 2) * 8 + 1 * g.val = g.val; omega
  rw [hemb]
  show _ = bitVal (maskAt (zArr m c) (rowOf ⟨t.val, ht⟩ r) g)
  unfold maskAt
  rw [chunk_rowOf, inChunk_rowOf]

/-- An index of the bit array is in point t's block iff each coordinate is in the block's range. -/
theorem mem_blk_mask (t : Fin cfg0.N) (i : S100000x8.Idx) :
    i ∈ ((cfg0.win 1).blk t).view.set ↔ ∀ a : Fin 2, win0_1.index t a * S10000x8.size a ≤ (i a).val ∧ (i a).val < win0_1.index t a * S10000x8.size a + S10000x8.size a := by
  show i ∈ ((View.whole main_v0).slice (win0_1.rect t)).set ↔ _
  rw [View.set_slice_whole, Rect.mem_set_unit]
  exact Iff.rfl

/-- Row n is in the block of point n / 10000. -/
theorem cover_mask (i : S100000x8.Idx) :
    ∃ t : Fin cfg0.N, (cfg0.win 1).flush t = true ∧ i ∈ ((cfg0.win 1).blk t).view.set := by
  have hi0 : (i 0).val < 100000 := (i 0).isLt
  have hi1 : (i 1).val < 8 := (i 1).isLt
  have hN : cfg0.N = 10 := N_0
  have hq : (i 0).val / 10000 < cfg0.N := by rw [hN]; omega
  refine ⟨⟨(i 0).val / 10000, hq⟩, flush0_1 _, ?_⟩
  rw [mem_blk_mask]
  obtain ⟨e0, e1, e2, e3⟩ := idx_facts0 ⟨(i 0).val / 10000, hq⟩
  intro a
  match a with
  | ⟨0, _⟩ =>
    show win0_1.index ⟨(i 0).val / 10000, hq⟩ (0 : Fin 2) * 10000 ≤ (i 0).val ∧ (i 0).val < win0_1.index ⟨(i 0).val / 10000, hq⟩ (0 : Fin 2) * 10000 + 10000
    rw [e2]; show (i 0).val / 10000 * 10000 ≤ (i 0).val ∧ (i 0).val < (i 0).val / 10000 * 10000 + 10000; omega
  | ⟨1, _⟩ =>
    show win0_1.index ⟨(i 0).val / 10000, hq⟩ (1 : Fin 2) * 8 ≤ (i 1).val ∧ (i 1).val < win0_1.index ⟨(i 0).val / 10000, hq⟩ (1 : Fin 2) * 8 + 8
    rw [e3]; omega

/-- The bit array after the first launch. -/
theorem final_mask (c : Dev nD) : (dat0 (V0 m ρ) c).arrAt 1 cfg0.N = maskF m c :=
  (dat0 (V0 m ρ) c).arrAt_eq_of_cover 1 (maskF m c) (fun t _ => flushed_mask m ρ c t) cover_mask

/-! ## The second launch: it finds the 128-column argument as launched and the bit array as the first left it -/

theorem V1_x (c : Dev nD) : V1 m ρ c main_arg0 = xArr m c := W1_of_ne m ρ c main_arg0 (by decide)
theorem V1_mask (c : Dev nD) : V1 m ρ c main_v0 = maskF m c := (W1_arr m ρ c 1).trans (final_mask m ρ c)

/-- Its index maps over the grid: point t is row block t / 8 and group t % 8. -/
theorem idx_facts1 : ∀ t : Fin cfg1.N,
    win1_0.index t (0 : Fin 2) = t.val / 8 ∧ win1_0.index t (1 : Fin 2) = 0
    ∧ win1_1.index t (0 : Fin 2) = t.val / 8 ∧ win1_1.index t (1 : Fin 2) = 0
    ∧ win1_2.index t (0 : Fin 3) = t.val % 8 ∧ win1_2.index t (1 : Fin 3) = t.val / 8 ∧ win1_2.index t (2 : Fin 3) = 0
    ∧ (grid1.coords t 1).val = t.val % 8 :=
  (by decide +kernel : ∀ t : Fin grid1.N, _)

/-- The two input blocks at point t. -/
abbrev xblk (c : Dev nD) (t : Fin cfg1.N) : Vec Ideal S10000x128 .f32 := iblk1 (V1 m ρ) c 0 t
abbrev mblk (c : Dev nD) (t : Fin cfg1.N) : Vec Ideal S10000x8 .f32 := iblk1 (V1 m ρ) c 1 t

theorem xblk_apply (c : Dev nD) (t : Fin cfg1.N) (ht : t.val / 8 < 10) (r : Fin 10000) (f : Fin 128) :
    xblk m ρ c t (ix2 r f) = xArr m c (ix2 (rowOf ⟨t.val / 8, ht⟩ r) f) := by
  obtain ⟨e0, e1, e2, e3, e4, e5, e6, e7⟩ := idx_facts1 t
  show V1 m ρ c main_arg0 (((cfg1.win 0).blk t).view.emb (ix2 r f)) = _
  rw [V1_x]
  refine congrArg _ ?_
  funext a; apply Fin.ext
  match a with
  | ⟨0, _⟩ => show win1_0.index t (0 : Fin 2) * 10000 + 1 * r.val = t.val / 8 * 10000 + r.val; omega
  | ⟨1, _⟩ => show win1_0.index t (1 : Fin 2) * 128 + 1 * f.val = f.val; omega

theorem mblk_apply (c : Dev nD) (t : Fin cfg1.N) (ht : t.val / 8 < 10) (r : Fin 10000) (j : Fin 8) :
    mblk m ρ c t (ix2 r j) = bitVal (sel (blockOf (zArr m c) ⟨t.val / 8, ht⟩) r j) := by
  obtain ⟨e0, e1, e2, e3, e4, e5, e6, e7⟩ := idx_facts1 t
  show V1 m ρ c main_v0 (((cfg1.win 1).blk t).view.emb (ix2 r j)) = _
  rw [V1_mask]
  have hemb : ((cfg1.win 1).blk t).view.emb (ix2 r j) = ix2 (rowOf ⟨t.val / 8, ht⟩ r) j := by
    funext a; apply Fin.ext
    match a with
    | ⟨0, _⟩ => show win1_1.index t (0 : Fin 2) * 10000 + 1 * r.val = t.val / 8 * 10000 + r.val; omega
    | ⟨1, _⟩ => show win1_1.index t (1 : Fin 2) * 8 + 1 * j.val = j.val; omega
  rw [hemb]
  show bitVal (maskAt (zArr m c) (rowOf ⟨t.val / 8, ht⟩ r) j) = _
  unfold maskAt
  rw [chunk_rowOf, inChunk_rowOf]

/-- What point t writes back is block t of the selected-rows array. -/
theorem flushed_parts (c : Dev nD) (t : Fin cfg1.N) :
    (dat1 (V1 m ρ) c).flushed 2 t = ((cfg1.win 2).blk t).view.read (Elt Ideal) (partsF m c) := by
  have hN : cfg1.N = 80 := N_1
  have ht80 : t.val < 80 := lt_of_lt_of_eq t.isLt hN
  have ht : t.val / 8 < 10 := by omega
  have hg : t.val % 8 < 8 := by omega
  obtain ⟨e0, e1, e2, e3, e4, e5, e6, e7⟩ := idx_facts1 t
  show (cfg1.win 2).cut (grid1.coords t) ((dat1 (V1 m ρ) c).after 2 t) = _
  rw [after1_2]
  unfold out1_2
  rw [View.canon_unit_zero hz3]
  simp only [View.ld_unit_zero (S := S10000x8) hz2, View.ld_unit_zero (S := S10000x128) hz2]
  funext y
  obtain ⟨u, r, f, rfl⟩ : ∃ (u : Fin 1) (r : Fin 10000) (f : Fin 128), y = ix3 u r f := ⟨y 0, y 1, y 2, eq_ix3 y⟩
  obtain rfl : u = 0 := Fin.ext (by omega)
  show k1_pay1 (F := Ideal) (grid1.coords t) (mblk m ρ c t) (xblk m ρ c t) (ix3 (0 : Fin 1) r f)
      = partsF m c (((cfg1.win 2).blk t).view.emb (ix3 (0 : Fin 1) r f))
  rw [Parts.parts_block_bit (grid1.coords t) ⟨t.val % 8, hg⟩ e7 (mblk m ρ c t) (xblk m ρ c t)
    (fun r j => sel (blockOf (zArr m c) ⟨t.val / 8, ht⟩) r j) (fun r j => mblk_apply m ρ c t ht r j) r f]
  rw [xblk_apply m ρ c t ht r f]
  have hemb : ((cfg1.win 2).blk t).view.emb (ix3 (0 : Fin 1) r f) = ix3 (⟨t.val % 8, hg⟩ : Fin 8) (rowOf ⟨t.val / 8, ht⟩ r) f := by
    funext a; apply Fin.ext
    match a with
    | ⟨0, _⟩ => show win1_2.index t (0 : Fin 3) * 1 + 1 * 0 = t.val % 8; omega
    | ⟨1, _⟩ => show win1_2.index t (1 : Fin 3) * 10000 + 1 * r.val = t.val / 8 * 10000 + r.val; omega
    | ⟨2, _⟩ => show win1_2.index t (2 : Fin 3) * 128 + 1 * f.val = f.val; omega
  rw [hemb]
  show _ = partAt (xArr m c) (zArr m c) ⟨t.val % 8, hg⟩ (rowOf ⟨t.val / 8, ht⟩ r) f
  unfold partAt maskAt
  rw [chunk_rowOf, inChunk_rowOf]

theorem mem_blk_parts (t : Fin cfg1.N) (i : S8x100000x128.Idx) :
    i ∈ ((cfg1.win 2).blk t).view.set ↔ ∀ a : Fin 3, win1_2.index t a * S1x10000x128.size a ≤ (i a).val ∧ (i a).val < win1_2.index t a * S1x10000x128.size a + S1x10000x128.size a := by
  show i ∈ ((View.whole main_v1).slice (win1_2.rect t)).set ↔ _
  rw [View.set_slice_whole, Rect.mem_set_unit]
  exact Iff.rfl

/-- Entry (g, n, f) is in the block of point 8·(n / 10000) + g. -/
theorem cover_parts (i : S8x100000x128.Idx) :
    ∃ t : Fin cfg1.N, (cfg1.win 2).flush t = true ∧ i ∈ ((cfg1.win 2).blk t).view.set := by
  have hi0 : (i 0).val < 8 := (i 0).isLt
  have hi1 : (i 1).val < 100000 := (i 1).isLt
  have hi2 : (i 2).val < 128 := (i 2).isLt
  have hN : cfg1.N = 80 := N_1
  have hq : (i 1).val / 10000 * 8 + (i 0).val < cfg1.N := by rw [hN]; omega
  refine ⟨⟨(i 1).val / 10000 * 8 + (i 0).val, hq⟩, flush1_2 _, ?_⟩
  rw [mem_blk_parts]
  obtain ⟨e0, e1, e2, e3, e4, e5, e6, e7⟩ := idx_facts1 ⟨(i 1).val / 10000 * 8 + (i 0).val, hq⟩
  have d1 : ((i 1).val / 10000 * 8 + (i 0).val) % 8 = (i 0).val := by omega
  have d2 : ((i 1).val / 10000 * 8 + (i 0).val) / 8 = (i 1).val / 10000 := by omega
  intro a
  match a with
  | ⟨0, _⟩ =>
    show win1_2.index ⟨(i 1).val / 10000 * 8 + (i 0).val, hq⟩ (0 : Fin 3) * 1 ≤ (i 0).val ∧ (i 0).val < win1_2.index ⟨(i 1).val / 10000 * 8 + (i 0).val, hq⟩ (0 : Fin 3) * 1 + 1
    rw [e4]; show ((i 1).val / 10000 * 8 + (i 0).val) % 8 * 1 ≤ (i 0).val ∧ (i 0).val < ((i 1).val / 10000 * 8 + (i 0).val) % 8 * 1 + 1; omega
  | ⟨1, _⟩ =>
    show win1_2.index ⟨(i 1).val / 10000 * 8 + (i 0).val, hq⟩ (1 : Fin 3) * 10000 ≤ (i 1).val ∧ (i 1).val < win1_2.index ⟨(i 1).val / 10000 * 8 + (i 0).val, hq⟩ (1 : Fin 3) * 10000 + 10000
    rw [e5]; show ((i 1).val / 10000 * 8 + (i 0).val) / 8 * 10000 ≤ (i 1).val ∧ (i 1).val < ((i 1).val / 10000 * 8 + (i 0).val) / 8 * 10000 + 10000; omega
  | ⟨2, _⟩ =>
    show win1_2.index ⟨(i 1).val / 10000 * 8 + (i 0).val, hq⟩ (2 : Fin 3) * 128 ≤ (i 2).val ∧ (i 2).val < win1_2.index ⟨(i 1).val / 10000 * 8 + (i 0).val, hq⟩ (2 : Fin 3) * 128 + 128
    rw [e6]; omega

/-- The selected-rows array after the second launch. -/
theorem final_parts (c : Dev nD) : (dat1 (V1 m ρ) c).arrAt 2 cfg1.N = partsF m c :=
  (dat1 (V1 m ρ) c).arrAt_eq_of_cover 2 (partsF m c) (fun t _ => flushed_parts m ρ c t) cover_parts

/-! ## After the launches -/

/-- A bit's number differs from zero exactly where the bit is set. -/
theorem une_bitVal (b : BitVec 1) : Ideal.cmp .une (bitVal b) (Ideal.ofBits .f32 0x00000000#32) = b := by
  rw [Ideal.ofBits_zero_f32]
  by_cases h : b = 1
  · subst h; simp [bitVal, Ideal.cmp]
  · have h0 : b = 0 := eq_zero_of_ne_one h
    subst h0; simp [bitVal, Ideal.cmp]

/-- No host operation writes the first result: it ends as the second launch left it. -/
theorem W3_parts (c : Dev nD) : W3 m ρ c (Proc.devRef .tc main_v1) = partsF m c :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V1 m ρ) c).arrAt 2 cfg1.N := W2_arr m ρ c 2
    _ = partsF m c := final_parts m ρ c

/-- The bit array is an input of the second launch, which leaves it as found. -/
theorem W2_mask (c : Dev nD) : W2 m ρ c (Proc.devRef .tc main_v0) = maskF m c :=
  ((W2_arr m ρ c 1).trans (((dat1 (V1 m ρ) c).arrAt_in 1 rfl _).trans (A_eq1 (V1 m ρ) c 1))).trans (V1_mask m ρ c)

/-- The second result: the comparison of the bit array with zero is the bits. -/
theorem W3_mask (c : Dev nD) : W3 m ρ c (Proc.devRef .tc main_v4) = maskArr (zArr m c) := by
  show StableHlo.after hostOps2 (W2 m ρ c) (Proc.devRef .tc main_v4) = _
  after_results
  rw [W2_mask]
  funext j
  show Ideal.cmp .une (bitVal (maskAt (zArr m c) (j 0) (j 1))) (Ideal.ofBits .f32 0x00000000#32) = maskAt (zArr m c) (j 0) (j 1)
  exact une_bitVal _

/-! ## The run, read -/

/-- Every weakly fair execution of the kernel program ends with the selected rows in its first result, the selection
    bits in its second, and the arguments as launched. -/
theorem run : θ_run defs (onTc (τ := τ) (main (F := Ideal))) ⟨m, fun _ => 0, ρ⟩ (fun r => ∀ c : Dev nD,
      r.2.mem ((c.tc : Thread nD τ).loc main_v1) = partsArr (xArr m c) (zArr m c)
      ∧ r.2.mem ((c.tc : Thread nD τ).loc main_v4) = maskArr (zArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (W3_parts m ρ c), (h c).2.1.trans (W3_mask m ρ c), (h c).2.2.1, (h c).2.2.2⟩)
    (run_named m ρ)

end Cert.NodeMask.Run

end
-- ==== Proof.RefRead.lean ====
/-
  The reference program read at an index: its two results are the selection bit and the selected rows of Spec.lean.

  The reference reshapes the 256 columns into 8 groups of 32, sums each group from zero and divides by 32; it
  reshapes the 100000 rows into ten blocks of 10000; within a block it takes each group column's maximum over the
  rows (from -∞), subtracts, exponentiates, sums down the rows and divides (a softmax down the rows); it sums a
  row's 8 softmax entries, sums those over the block, and multiplies each softmax entry by the block's total minus
  the row's total; back over all 100000 rows it compares each weight with the row's maximum. Each stage is read
  here at explicit coordinates and identified with the quantity of Spec.lean that it computes.
-/
import proofs.«159769_j13365938225811_1_alg».proof.Proof.Gen.ReferenceIdeal.Run
import proofs.«159769_j13365938225811_1_alg».proof.Proof.Gen.ReferenceIdeal.Read
import proofs.«159769_j13365938225811_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.NodeMask.Ref

open Idealize.ShloMosaic Idealize.ShloMosaic.ValueIdx Cert.ReferenceIdeal Cert.NodeMask
open Cert.ReferenceIdeal.Read Cert.ReferenceIdeal.Gen

/-! ## Small facts: the two words, a maximum from its own start, a one-axis maximum as a fold -/

/-- The word 0x42000000 denotes 32. -/
theorem ofBits_32 : Ideal.ofBits .f32 0x42000000#32 = ((32 : ℝ) : EReal) := by
  simp [Ideal.ofBits, Ideal.ieee, -EReal.coe_mul]; norm_num

/-- The word 0x3D000000 denotes 1/32. -/
theorem ofBits_32nd : Ideal.ofBits .f32 w32nd = ((1 / 32 : ℝ) : EReal) := by
  show Ideal.ofBits .f32 0x3D000000#32 = _
  simp [Ideal.ofBits, Ideal.ieee, -EReal.coe_mul]; norm_num

/-- Dividing by 32 is multiplying by 1/32, at the infinities too. -/
theorem div_32 (s : EReal) :
    Ideal.div s (Ideal.ofBits .f32 0x42000000#32) = s * Ideal.ofBits .f32 w32nd := by
  rw [ofBits_32, ofBits_32nd, Ideal.div_coe (by norm_num)]

/-- A maximum folded from a is at least a, so taking the maximum with a again changes nothing. -/
theorem max_fold_max {ι : Type} (s : Finset ι) (a : EReal) (f : ι → EReal) :
    max a (s.fold max a f) = s.fold max a f :=
  max_eq_right ((Finset.le_fold_max a).2 (Or.inl le_rfl))

/-- The host's maximum-reduction over one axis of extent n, at a result index j: the maximum, from the initial
    value, over that axis's coordinates k of the operand at j with k inserted. -/
theorem hostReduceMax_single {s t u : Shape} {a : Fin s.rank} (n : Nat) (hn : s.size a = n)
    (h' : s.ReducesTo [a] t) (h : s.Reduces [a] t)
    (x : s.Idx → EReal) (init : u.Idx → EReal) (hu : 0 < u.numel) (j : t.Idx) :
    Host.reduce (FloatOps.maximumf (F := Ideal) (φ := .f32)) x init h' hu j
      = (Finset.univ : Finset (Fin n)).fold max (init (Shape.Idx.first hu))
          (fun k => x (h.lift j (k.cast hn.symm))) := by
  subst hn
  exact Host.reduce_eq_fold_single _ x init h' h hu j

/-! ## The group means -/

/-- The reshape to [100000, 8, 32]: entry (n, c, k) is entry (n, 32·c + k) of the input. -/
theorem v0_at (z : (⟨S100000x256, .f32⟩ : BufTy).Contents (Elt Ideal)) (n : Fin 100000) (c : Fin 8) (k : Fin 32) :
    val_main_v0 (F := Ideal) z (ix3 n c k) = z (ix2 n (col c k)) := by
  rw [val_main_v0_apply]
  refine congrArg z (funext fun a => Fin.ext ?_)
  match a with
  | ⟨0, _⟩ => show ((n.val * 8 + c.val) * 32 + k.val) / 256 = n.val; omega
  | ⟨1, _⟩ => show ((n.val * 8 + c.val) * 32 + k.val) % 256 = 32 * c.val + k.val; omega

/-- The sum over the last axis from zero: a group's 32 entries, summed. -/
theorem v1_at (z : (⟨S100000x256, .f32⟩ : BufTy).Contents (Elt Ideal)) (n : Fin 100000) (c : Fin 8) :
    val_main_v1 (F := Ideal) z (ix2 n c) = ∑ k : Fin 32, z (ix2 n (col c k)) := by
  rw [val_main_v1_apply, val_main_cst_apply, Ideal.ofBits_def, Ideal.ofBits_zero_f32, zero_add]
  refine Finset.sum_congr rfl fun k _ => ?_
  have hi : idx_main_v1 (ix2 n c) k = ix3 n c k := by
    funext a; match a with | ⟨0, _⟩ => rfl | ⟨1, _⟩ => rfl | ⟨2, _⟩ => rfl
  rw [hi, v0_at]

/-- Divided by 32: the group mean of row n, which is row (n mod 10000) of block (n div 10000). -/
theorem v3_at (z : (⟨S100000x256, .f32⟩ : BufTy).Contents (Elt Ideal)) (n : Fin 100000) (c : Fin 8) :
    val_main_v3 (F := Ideal) z (ix2 n c) = gmean (blockOf z (chunk n)) (inChunk n) c := by
  rw [val_main_v3_apply, v1_at, val_main_v2_apply, val_main_cst_0_apply, Ideal.hostDivf_def, Ideal.ofBits_def, div_32]
  unfold gmean blockOf
  simp only [rowOf_chunk]

/-- The reshape to [10, 10000, 8]: entry (q, r, c) is the group mean of row r of block q. -/
theorem v4_at (z : (⟨S100000x256, .f32⟩ : BufTy).Contents (Elt Ideal)) (q : Fin 10) (r : Fin 10000) (c : Fin 8) :
    val_main_v4 (F := Ideal) z (ix3 q r c) = gmean (blockOf z q) r c := by
  rw [val_main_v4_apply]
  have hi : idx_main_v4 (ix3 q r c) = ix2 (rowOf q r) c := by
    funext a; apply Fin.ext
    match a with
    | ⟨0, _⟩ => show ((q.val * 10000 + r.val) * 8 + c.val) / 8 = q.val * 10000 + r.val; omega
    | ⟨1, _⟩ => show ((q.val * 10000 + r.val) * 8 + c.val) % 8 = c.val; omega
  rw [hi, v3_at, chunk_rowOf, inChunk_rowOf]

/-! ## The softmax down a block's rows -/

/-- The maximum over axis 1 from -∞: a group column's maximum over the block's rows. -/
theorem v5_at (z : (⟨S100000x256, .f32⟩ : BufTy).Contents (Elt Ideal)) (q : Fin 10) (c : Fin 8) :
    val_main_v5 (F := Ideal) z (ix2 q c) = colMax (blockOf z q) c := by
  unfold val_main_v5
  refine (hostReduceMax_single 10000 rfl reducesTo_S10x10000x8_S10x8_d1 (by decide) (val_main_v4 (F := Ideal) z)
    (val_main_cst_1 (F := Ideal)) h_S_ (ix2 q c)).trans ?_
  rw [val_main_cst_1_apply, Ideal.ofBits_def]
  unfold colMax
  refine Finset.fold_congr fun r _ => ?_
  refine (congrArg (val_main_v4 (F := Ideal) z) (?_ : _ = ix3 q r c)).trans (v4_at z q r c)
  funext a; apply Fin.ext; match a with | ⟨0, _⟩ => rfl | ⟨1, _⟩ => rfl | ⟨2, _⟩ => rfl

/-- Taking the maximum with -∞ once more changes nothing. -/
theorem v7_at (z : (⟨S100000x256, .f32⟩ : BufTy).Contents (Elt Ideal)) (q : Fin 10) (c : Fin 8) :
    val_main_v7 (F := Ideal) z (ix2 q c) = colMax (blockOf z q) c := by
  rw [val_main_v7_apply, val_main_v6_apply, val_main_cst_2_apply, v5_at, Ideal.maximumf_def, Ideal.ofBits_def]
  unfold colMax
  exact max_fold_max _ _ _

/-- Broadcast back over the rows. -/
theorem v9_at (z : (⟨S100000x256, .f32⟩ : BufTy).Contents (Elt Ideal)) (q : Fin 10) (r : Fin 10000) (c : Fin 8) :
    val_main_v9 (F := Ideal) z (ix3 q r c) = colMax (blockOf z q) c := by
  rw [val_main_v9_apply, val_main_v8_apply]
  have hi : idx_main_v8 (idx_main_v9 (ix3 q r c)) = ix2 q c := by
    funext a; match a with | ⟨0, _⟩ => rfl | ⟨1, _⟩ => rfl
  rw [hi, v7_at]

/-- Shifted and exponentiated. -/
theorem v11_at (z : (⟨S100000x256, .f32⟩ : BufTy).Contents (Elt Ideal)) (q : Fin 10) (r : Fin 10000) (c : Fin 8) :
    val_main_v11 (F := Ideal) z (ix3 q r c) = expo (blockOf z q) r c := by
  rw [val_main_v11_apply, val_main_v10_apply, v4_at, v9_at, Ideal.hostUnary_exp_def, Ideal.subf_def]
  rfl

/-- Summed down the rows from zero. -/
theorem v12_at (z : (⟨S100000x256, .f32⟩ : BufTy).Contents (Elt Ideal)) (q : Fin 10) (c : Fin 8) :
    val_main_v12 (F := Ideal) z (ix2 q c) = colSum (blockOf z q) c := by
  rw [val_main_v12_apply, val_main_cst_3_apply, Ideal.ofBits_def, Ideal.ofBits_zero_f32, zero_add]
  unfold colSum
  refine Finset.sum_congr rfl fun r _ => ?_
  have hi : idx_main_v12 (ix2 q c) r = ix3 q r c := by
    funext a; match a with | ⟨0, _⟩ => rfl | ⟨1, _⟩ => rfl | ⟨2, _⟩ => rfl
  rw [hi, v11_at]

/-- Broadcast back over the rows. -/
theorem v14_at (z : (⟨S100000x256, .f32⟩ : BufTy).Contents (Elt Ideal)) (q : Fin 10) (r : Fin 10000) (c : Fin 8) :
    val_main_v14 (F := Ideal) z (ix3 q r c) = colSum (blockOf z q) c := by
  rw [val_main_v14_apply, val_main_v13_apply]
  have hi : idx_main_v13 (idx_main_v14 (ix3 q r c)) = ix2 q c := by
    funext a; match a with | ⟨0, _⟩ => rfl | ⟨1, _⟩ => rfl
  rw [hi, v12_at]

/-- The softmax entry. -/
theorem v15_at (z : (⟨S100000x256, .f32⟩ : BufTy).Contents (Elt Ideal)) (q : Fin 10) (r : Fin 10000) (c : Fin 8) :
    val_main_v15 (F := Ideal) z (ix3 q r c) = soft (blockOf z q) r c := by
  rw [val_main_v15_apply, v11_at, v14_at, Ideal.hostDivf_def]
  rfl

/-! ## The weights -/

/-- A row's total over the 8 groups. -/
theorem v16_at (z : (⟨S100000x256, .f32⟩ : BufTy).Contents (Elt Ideal)) (q : Fin 10) (r : Fin 10000) :
    val_main_v16 (F := Ideal) z (ix2 q r) = rowSum (blockOf z q) r := by
  rw [val_main_v16_apply, val_main_cst_4_apply, Ideal.ofBits_def, Ideal.ofBits_zero_f32, zero_add]
  unfold rowSum
  refine Finset.sum_congr rfl fun c _ => ?_
  have hi : idx_main_v16 (ix2 q r) c = ix3 q r c := by
    funext a; match a with | ⟨0, _⟩ => rfl | ⟨1, _⟩ => rfl | ⟨2, _⟩ => rfl
  rw [hi, v15_at]

/-- The block's total. -/
theorem v17_at (z : (⟨S100000x256, .f32⟩ : BufTy).Contents (Elt Ideal)) (q : Fin 10) :
    val_main_v17 (F := Ideal) z (ix1 q) = total (blockOf z q) := by
  rw [val_main_v17_apply, val_main_cst_5_apply, Ideal.ofBits_def, Ideal.ofBits_zero_f32, zero_add]
  unfold total
  refine Finset.sum_congr rfl fun r _ => ?_
  have hi : idx_main_v17 (ix1 q) r = ix2 q r := by
    funext a; match a with | ⟨0, _⟩ => rfl | ⟨1, _⟩ => rfl
  rw [hi, v16_at]

/-- Broadcast over the rows. -/
theorem v19_at (z : (⟨S100000x256, .f32⟩ : BufTy).Contents (Elt Ideal)) (q : Fin 10) (r : Fin 10000) :
    val_main_v19 (F := Ideal) z (ix2 q r) = total (blockOf z q) := by
  rw [val_main_v19_apply, val_main_v18_apply]
  have hi : idx_main_v18 (idx_main_v19 (ix2 q r)) = ix1 q := by
    funext a; match a with | ⟨0, _⟩ => rfl
  rw [hi, v17_at]

/-- The block's total minus the row's total, broadcast over the groups. -/
theorem v22_at (z : (⟨S100000x256, .f32⟩ : BufTy).Contents (Elt Ideal)) (q : Fin 10) (r : Fin 10000) (c : Fin 8) :
    val_main_v22 (F := Ideal) z (ix3 q r c) = total (blockOf z q) - rowSum (blockOf z q) r := by
  rw [val_main_v22_apply, val_main_v21_apply]
  have hi : idx_main_v21 (idx_main_v22 (ix3 q r c)) = ix2 q r := by
    funext a; match a with | ⟨0, _⟩ => rfl | ⟨1, _⟩ => rfl
  rw [hi, val_main_v20_apply, v19_at, v16_at, Ideal.subf_def]

/-- The weight of group c in row r of block q. -/
theorem v23_at (z : (⟨S100000x256, .f32⟩ : BufTy).Contents (Elt Ideal)) (q : Fin 10) (r : Fin 10000) (c : Fin 8) :
    val_main_v23 (F := Ideal) z (ix3 q r c) = weight (blockOf z q) r c := by
  rw [val_main_v23_apply, v15_at, v22_at, Ideal.mulf_def]
  rfl

/-- The reshape back to [100000, 8]: row n is row (n mod 10000) of block (n div 10000). -/
theorem v24_at (z : (⟨S100000x256, .f32⟩ : BufTy).Contents (Elt Ideal)) (n : Fin 100000) (c : Fin 8) :
    val_main_v24 (F := Ideal) z (ix2 n c) = weight (blockOf z (chunk n)) (inChunk n) c := by
  rw [val_main_v24_apply]
  have hi : idx_main_v24 (ix2 n c) = ix3 (chunk n) (inChunk n) c := by
    funext a; apply Fin.ext
    match a with
    | ⟨0, _⟩ => show (n.val * 8 + c.val) / 80000 = n.val / 10000; omega
    | ⟨1, _⟩ => show (n.val * 8 + c.val) / 8 % 10000 = n.val % 10000; omega
    | ⟨2, _⟩ => show (n.val * 8 + c.val) % 8 = c.val; omega
  rw [hi, v23_at]

/-! ## The selection -/

/-- The maximum over axis 1 from -∞: a row's largest weight. -/
theorem v25_at (z : (⟨S100000x256, .f32⟩ : BufTy).Contents (Elt Ideal)) (n : Fin 100000) :
    val_main_v25 (F := Ideal) z (ix1 n) = rowMax (blockOf z (chunk n)) (inChunk n) := by
  unfold val_main_v25
  refine (hostReduceMax_single 8 rfl reducesTo_S100000x8_S100000_d1 (by decide) (val_main_v24 (F := Ideal) z)
    (val_main_cst_6 (F := Ideal)) h_S_ (ix1 n)).trans ?_
  rw [val_main_cst_6_apply, Ideal.ofBits_def]
  unfold rowMax
  refine Finset.fold_congr fun c _ => ?_
  refine (congrArg (val_main_v24 (F := Ideal) z) (?_ : _ = ix2 n c)).trans (v24_at z n c)
  funext a; apply Fin.ext; match a with | ⟨0, _⟩ => rfl | ⟨1, _⟩ => rfl

/-- Broadcast over the groups. -/
theorem v27_at (z : (⟨S100000x256, .f32⟩ : BufTy).Contents (Elt Ideal)) (n : Fin 100000) (c : Fin 8) :
    val_main_v27 (F := Ideal) z (ix2 n c) = rowMax (blockOf z (chunk n)) (inChunk n) := by
  rw [val_main_v27_apply, val_main_v26_apply]
  have hi : idx_main_v26 (idx_main_v27 (ix2 n c)) = ix1 n := by
    funext a; match a with | ⟨0, _⟩ => rfl
  rw [hi, v25_at]

/-- The reference's comparison result at row n, group c is the selection bit. -/
theorem ref_mask (z : (⟨S100000x256, .f32⟩ : BufTy).Contents (Elt Ideal)) (n : Fin 100000) (c : Fin 8) :
    Cert.ReferenceIdeal.Read.val_main_v28 (F := Ideal) z (ix2 n c) = maskAt z n c := by
  rw [val_main_v28_apply, v24_at, v27_at, Ideal.cmpf_def]
  rfl

/-! ## The selected rows -/

/-- The reference's select at (c, n, f) is row n of the other input where selected, zero where not. -/
theorem ref_parts (x : (⟨S100000x128, .f32⟩ : BufTy).Contents (Elt Ideal)) (z : (⟨S100000x256, .f32⟩ : BufTy).Contents (Elt Ideal))
    (c : Fin 8) (n : Fin 100000) (f : Fin 128) :
    Cert.ReferenceIdeal.Read.val_main_v32 (F := Ideal) x z (ix3 c n f) = partAt x z c n f := by
  rw [val_main_v32_apply, val_main_call0_v1_apply, val_main_v30_apply, val_main_v29_apply,
    val_main_call0_v2_apply, val_main_v31_apply, val_main_call0_v3_apply, val_main_call0_v0_apply,
    val_main_cst_7_apply, Ideal.ofBits_def]
  have h1 : idx_main_v29 (idx_main_v30 (idx_main_call0_v1 (ix3 c n f))) = ix2 n c := by
    funext a; match a with | ⟨0, _⟩ => rfl | ⟨1, _⟩ => rfl
  have h2 : idx_main_v31 (idx_main_call0_v2 (ix3 c n f)) = ix2 n f := by
    funext a; match a with | ⟨0, _⟩ => rfl | ⟨1, _⟩ => rfl
  rw [h1, h2, ref_mask]
  rfl

/-- The two results as whole arrays. -/
theorem ref_mask_arr (z : (⟨S100000x256, .f32⟩ : BufTy).Contents (Elt Ideal)) :
    Cert.ReferenceIdeal.Read.val_main_v28 (F := Ideal) z = maskArr z := by
  funext j
  obtain ⟨n, c, rfl⟩ : ∃ (n : Fin 100000) (c : Fin 8), j = ix2 n c := ⟨j 0, j 1, eq_ix2 j⟩
  exact ref_mask z n c

theorem ref_parts_arr (x : (⟨S100000x128, .f32⟩ : BufTy).Contents (Elt Ideal)) (z : (⟨S100000x256, .f32⟩ : BufTy).Contents (Elt Ideal)) :
    Cert.ReferenceIdeal.Read.val_main_v32 (F := Ideal) x z = partsArr x z := by
  funext j
  obtain ⟨c, n, f, rfl⟩ : ∃ (c : Fin 8) (n : Fin 100000) (f : Fin 128), j = ix3 c n f := ⟨j 0, j 1, j 2, eq_ix3 j⟩
  exact ref_parts x z c n f

end Cert.NodeMask.Ref

end
-- ==== Proof.lean ====
/-
  The certificate's five claims.

  The kernel program makes, in a first launch, for each block of 10000 rows of the 256-column input the bits
  "this row's weight in this group is the row's largest" (eight group means per row, a softmax down the block's rows,
  the weight a softmax entry times the block's total less the row's own), stored as 0 and 1; in a second launch, per
  group, the rows of the 128-column input times the group's bit; and on the host the bits back from the numbers. The
  reference computes the same bits over the array reshaped into ten blocks and selects the rows with them. Over the
  extended reals the two agree index by index: a sum times the binary fraction 1/32 is the sum divided by 32, a
  maximum taken again with -∞ is itself, a sum of eight terms of which seven are zero is the eighth, and a number times
  0 or 1 is zero or the number. No finiteness of the inputs is used.

  The frames of the two kernel programs are the launch theorem over the two regions; the reference's frame is its run
  with the results dropped; the idealization rewrote nothing.
-/
import proofs.«159769_j13365938225811_1_alg».proof.Defs
import proofs.«159769_j13365938225811_1_alg».proof.Proof.Gen.Kernel
import proofs.«159769_j13365938225811_1_alg».proof.Proof.Gen.Kernel.Skeleton
import proofs.«159769_j13365938225811_1_alg».proof.Proof.Gen.Kernel.Launch
import proofs.«159769_j13365938225811_1_alg».proof.Proof.Gen.Kernel.Points
import proofs.«159769_j13365938225811_1_alg».proof.Proof.KernelFrame
import proofs.«159769_j13365938225811_1_alg».proof.Proof.Gen.KernelIdeal
import proofs.«159769_j13365938225811_1_alg».proof.Proof.Gen.KernelIdeal.Skeleton
import proofs.«159769_j13365938225811_1_alg».proof.Proof.Gen.KernelIdeal.Launch
import proofs.«159769_j13365938225811_1_alg».proof.Proof.Gen.KernelIdeal.Points
import proofs.«159769_j13365938225811_1_alg».proof.Proof.KernelIdealRun
import proofs.«159769_j13365938225811_1_alg».proof.Proof.Gen.ReferenceIdeal
import proofs.«159769_j13365938225811_1_alg».proof.Proof.Gen.ReferenceIdeal.Run
import proofs.«159769_j13365938225811_1_alg».proof.Proof.Gen.ReferenceIdeal.Read
import proofs.«159769_j13365938225811_1_alg».proof.Proof.Gen.Pre_finite_inputs
import proofs.«159769_j13365938225811_1_alg».proof.Proof.KernelValue
import proofs.«159769_j13365938225811_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.Value.run (F := Ideal) m ρ)

/-- Both programs end with the selected rows and the selection bits of Spec.lean, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.NodeMask.partsArr (Cert.NodeMask.Run.xArr m c) (Cert.NodeMask.Run.zArr m c),
    fun c => Cert.NodeMask.maskArr (Cert.NodeMask.Run.zArr m c), Cert.NodeMask.Run.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v32_eq, Cert.NodeMask.Ref.ref_parts_arr, (hagree c).1, (hagree c).2]
  · rw [Cert.ReferenceIdeal.Read.val_main_v28_eq, Cert.NodeMask.Ref.ref_mask_arr, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
